-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S1 : Shape := ⟨1, ![1]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : FVec F S4096x4096 .f32) (main_arg1 : FVec F S4096x4096 .f32) (main_arg2 : FVec F S1 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S1 .f32 := Host.absf main_arg2
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  main_v13
-- ==== Kernel.lean ====
abbrev S4096x4096 : Shape := ⟨2, ![4096, 4096]⟩
abbrev S1 : Shape := ⟨1, ![1]⟩
abbrev S_ : Shape := ⟨0, ![]⟩
abbrev S4096 : Shape := ⟨1, ![4096]⟩
abbrev S1x4096 : Shape := ⟨2, ![1, 4096]⟩
abbrev S1024x1024 : Shape := ⟨2, ![1024, 1024]⟩
abbrev S1x1024 : Shape := ⟨2, ![1, 1024]⟩

abbrev nBuf : Space → Nat
  | .hbm => 11
  | .vmem => 9
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S1, .f32⟩
  | .hbm, ⟨3, _⟩ => ⟨S_, .f32⟩
  | .hbm, ⟨4, _⟩ => ⟨S4096, .f32⟩
  | .hbm, ⟨5, _⟩ => ⟨S4096, .f32⟩
  | .hbm, ⟨6, _⟩ => ⟨S4096, .f32⟩
  | .hbm, ⟨7, _⟩ => ⟨S1x4096, .f32⟩
  | .hbm, ⟨8, _⟩ => ⟨S4096x4096, .bf16⟩
  | .hbm, ⟨9, _⟩ => ⟨S4096x4096, .bf16⟩
  | .hbm, ⟨10, _⟩ => ⟨S4096x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  reducesTo_S4096x4096_S4096_d1 : S4096x4096.ReducesTo [1] S4096
  h_S_ : 0 < S_.numel
  bcast_S1_S4096_0 : S1.BroadcastsInDim S4096 (![0] : Fin 1 → Fin S4096.rank)
  shapeCasts_S4096_S1x4096 : S4096.ShapeCasts S1x4096
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x4096.size a
  hwx0_0 : ∀ i : grid0.Coords, EltTy.bits .bf16 = 32 ∨ (Rect.block (s := S4096x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x4096.size a
  hwx0_3 : ∀ i : grid0.Coords, EltTy.bits .f32 = 32 ∨ (Rect.block (s := S4096x4096) S1024x1024.size (cc0_transform_3 i) (hinb0_3 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v4) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4096x4096 : Shape := ⟨2, ![4096, 4096]⟩
abbrev S1 : Shape := ⟨1, ![1]⟩
abbrev S_ : Shape := ⟨0, ![]⟩
abbrev S4096 : Shape := ⟨1, ![4096]⟩
abbrev S1x4096 : Shape := ⟨2, ![1, 4096]⟩

abbrev nBuf : Space → Nat
  | .hbm => 14
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S1, .f32⟩
  | .hbm, ⟨3, _⟩ => ⟨S_, .f32⟩
  | .hbm, ⟨4, _⟩ => ⟨S4096, .f32⟩
  | .hbm, ⟨5, _⟩ => ⟨S4096, .f32⟩
  | .hbm, ⟨6, _⟩ => ⟨S4096, .f32⟩
  | .hbm, ⟨7, _⟩ => ⟨S4096x4096, .f32⟩
  | .hbm, ⟨8, _⟩ => ⟨S1x4096, .f32⟩
  | .hbm, ⟨9, _⟩ => ⟨S4096x4096, .f32⟩
  | .hbm, ⟨10, _⟩ => ⟨S4096x4096, .f32⟩
  | .hbm, ⟨11, _⟩ => ⟨S_, .f32⟩
  | .hbm, ⟨12, _⟩ => ⟨S4096x4096, .f32⟩
  | .hbm, ⟨13, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_cst : Ref sig .tc := ⟨.hbm, 11, rfl⟩
abbrev main_call0_v0 : Ref sig .tc := ⟨.hbm, 12, rfl⟩
abbrev main_v7 : Ref sig .tc := ⟨.hbm, 13, rfl⟩

abbrev nD : Nat := 1
abbrev τ : Topo := Topo.v7x

variable {F : FTy → Type} [FloatOps F]

class Facts₀ : Prop where
  reducesTo_S4096x4096_S4096_d1 : S4096x4096.ReducesTo [1] S4096
  h_S_ : 0 < S_.numel
  bcast_S1_S4096_0 : S1.BroadcastsInDim S4096 (![0] : Fin 1 → Fin S4096.rank)
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  dot_S4096x4096_S4096x4096_S4096x4096_1_1_0_0_n_n_wf : DotDims.WF S4096x4096 S4096x4096 S4096x4096 [1] [1] [0] [0] [] []

variable [Facts₀]

def dot_S4096x4096_S4096x4096_S4096x4096_1_1_0_0_n_n : DotDims S4096x4096 S4096x4096 S4096x4096 where
  lhsContracting := [1]
  rhsContracting := [1]
  lhsNonContracting := [0]
  rhsNonContracting := [0]
  lhsBatch := []
  rhsBatch := []
  wf := dot_S4096x4096_S4096x4096_S4096x4096_1_1_0_0_n_n_wf

class Facts : Prop extends Facts₀ where

variable [Facts]
-- ==== Proof.Spec.lean ====
/-
  The mathematics of the certificate, with no program in sight.

  The result is `relu (x · Wᵀ + b)` entry by entry: at row `r` and column `o`,
  `max (∑ n, x[r, n] · W[o, n] + b[o]) 0` on the extended reals, where `b` is the bias vector
  both programs compute by the same host operations (so it stays a variable here).

  The kernel does not form the sum over the 4096 contraction indices at once: it walks the
  contraction axis in four blocks of 1024 columns, starting from zero and adding one block's
  partial sum per step. `sum_kblocks` says the two agree: a sum over `Fin 4096` is the sum of
  the four block sums, taken in the kernel's order from `0`. Only commutative-monoid laws are
  used, which the extended reals satisfy at the infinities too, so finiteness of the inputs is
  never needed.
-/
import Idealize.ShloMosaic.PureOps.Ideal
import Idealize.ShloMosaic.Lib.ValueIdx

noncomputable section

namespace Cert.Spec

open Idealize.ShloMosaic Idealize.ShloMosaic.ValueIdx

/-- Column `k` of contraction block `s`: column `1024·s + k` of the whole axis. -/
def kcol (s : Fin 4) (k : Fin 1024) : Fin 4096 := ⟨1024 * s.val + k.val, by have := s.isLt; have := k.isLt; omega⟩

/-- Row (or column) `p` of tile `I` along an axis of 4096 cut into four tiles of 1024. -/
def tile (I : Fin 4) (p : Fin 1024) : Fin 4096 := ⟨1024 * I.val + p.val, by have := I.isLt; have := p.isLt; omega⟩

theorem kcol_val (s : Fin 4) (k : Fin 1024) : (kcol s k).val = 1024 * s.val + k.val := rfl
theorem tile_val (I : Fin 4) (p : Fin 1024) : (tile I p).val = 1024 * I.val + p.val := rfl

/-- A sum over the 4096 contraction indices is the sum of its four blocks of 1024, accumulated
    from zero in block order. -/
theorem sum_kblocks {M : Type*} [AddCommMonoid M] (f : Fin 4096 → M) :
    ∑ n : Fin 4096, f n
      = (((0 + ∑ k : Fin 1024, f (kcol 0 k)) + ∑ k : Fin 1024, f (kcol 1 k)) + ∑ k : Fin 1024, f (kcol 2 k))
          + ∑ k : Fin 1024, f (kcol 3 k) := by
  have e : ∀ (s : Fin 4) (k : Fin 1024), (finProdFinEquiv (m := 4) (n := 1024)) (s, k) = kcol s k := fun s k =>
    Fin.ext (by show k.val + 1024 * s.val = 1024 * s.val + k.val; omega)
  rw [← (finProdFinEquiv (m := 4) (n := 1024)).sum_comp f, Fintype.sum_prod_type, Fin.sum_univ_four, zero_add]
  simp only [e]

/-- The shapes of the statement, spelt as literals. -/
abbrev Smat : Shape := ⟨2, ![4096, 4096]⟩
abbrev Svec : Shape := ⟨1, ![4096]⟩

/-- The result: `relu (x · Wᵀ + b)`, entry by entry on the extended reals. The zero the
    rectifier compares with is kept as the float word both programs print. -/
def G (x W : FVec Ideal Smat .f32) (b : FVec Ideal Svec .f32) : FVec Ideal Smat .f32 := fun j =>
  max ((∑ n : Fin 4096, x (ix2 (j 0) n) * W (ix2 (j 1) n)) + b (ix1 (j 1))) (Ideal.ofBits .f32 0x00000000#32)

theorem G_apply (x W : FVec Ideal Smat .f32) (b : FVec Ideal Svec .f32) (r o : Fin 4096) :
    G x W b (ix2 r o)
      = max ((∑ n : Fin 4096, x (ix2 r n) * W (ix2 o n)) + b (ix1 o)) (Ideal.ofBits .f32 0x00000000#32) := rfl

end Cert.Spec

end
-- ==== Proof.Payloads.lean ====
/-
  The kernel body's three stored values, read at an entry on the extended reals.

  The body keeps a 1024 × 1024 accumulator. Its first store (at the first contraction step only)
  fills the accumulator with zero. Its second store, at every step, adds to entry `(p, q)` of the
  accumulator the partial dot product of row `p` of the `x` tile with row `q` of the `W` tile — the
  matrix unit contracts the LAST axis of both operands, so the product is `x · Wᵀ`. Its third
  store (at the last contraction step only) adds the bias row, broadcast down the rows, and
  rectifies: `max (acc + b) 0`.
-/
import proofs.«167640_j82205674045457_1_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.Pay

open Cert.KernelIdeal Cert.KernelIdeal.Gen Idealize.ShloMosaic Idealize.ShloMosaic.ValueIdx

/-- The accumulator's reset value is zero at every entry. -/
theorem reset_apply (j : S1024x1024.Idx) : k0_pay1 (F := Ideal) j = 0 := by
  unfold k0_pay1
  rw [shapeCast_self]
  exact Ideal.ofBits_zero_f32

/-! The matrix unit's two operand indices at output entry `(p, q)` and contraction index `k` are `(p, k)` and `(q, k)`. -/

theorem lhs_tile_0 (i : S1024x1024.Idx) (q : dot_S1024x1024_S1024x1024_S1024x1024_1_1_0_0_n_n.contr.Idx) :
    (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
theorem lhs_tile_1 (i : S1024x1024.Idx) (q : dot_S1024x1024_S1024x1024_S1024x1024_1_1_0_0_n_n.contr.Idx) :
    (dot_S1024x1024_S1024x1024_S1024x1024_1_1_0_0_n_n.lhsIdx i q 1).val = (q ⟨0, by decide⟩).val :=
  dot_S1024x1024_S1024x1024_S1024x1024_1_1_0_0_n_n.lhsIdx_val_of_single rfl i q
theorem rhs_tile_0 (i : S1024x1024.Idx) (q : dot_S1024x1024_S1024x1024_S1024x1024_1_1_0_0_n_n.contr.Idx) :
    (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
theorem rhs_tile_1 (i : S1024x1024.Idx) (q : dot_S1024x1024_S1024x1024_S1024x1024_1_1_0_0_n_n.contr.Idx) :
    (dot_S1024x1024_S1024x1024_S1024x1024_1_1_0_0_n_n.rhsIdx i q 1).val = (q ⟨0, by decide⟩).val :=
  dot_S1024x1024_S1024x1024_S1024x1024_1_1_0_0_n_n.rhsIdx_val_of_single rfl i q

/-- One tile product into a zero accumulator, at an entry: the dot product of the two tiles' rows. -/
theorem tile_dot_apply (a b : FVec Ideal S1024x1024 .bf16) (p q : Fin 1024) :
    matmul dot_S1024x1024_S1024x1024_S1024x1024_1_1_0_0_n_n none a b (constant S1024x1024 .f32 0x00000000#32) (ix2 p q)
      = ∑ k : Fin 1024, a (ix2 p k) * b (ix2 q k) := by
  simp only [matmul]
  rw [Ideal.matmul_constant_zero_apply, ← Equiv.sum_comp (ValueIdx.contrEquiv1 dot_S1024x1024_S1024x1024_S1024x1024_1_1_0_0_n_n 1024 rfl rfl).symm]
  refine Finset.sum_congr rfl fun k _ => ?_
  have hk := ValueIdx.contrEquiv1_symm_val dot_S1024x1024_S1024x1024_S1024x1024_1_1_0_0_n_n 1024 rfl rfl k
  have el : dot_S1024x1024_S1024x1024_S1024x1024_1_1_0_0_n_n.lhsIdx (ix2 p q) ((ValueIdx.contrEquiv1 dot_S1024x1024_S1024x1024_S1024x1024_1_1_0_0_n_n 1024 rfl rfl).symm k) = ix2 p k := funext fun a => Fin.ext (by
    match a with
    | ⟨0, _⟩ => exact lhs_tile_0 _ _
    | ⟨1, _⟩ => exact (lhs_tile_1 _ _).trans hk)
  have er : dot_S1024x1024_S1024x1024_S1024x1024_1_1_0_0_n_n.rhsIdx (ix2 p q) ((ValueIdx.contrEquiv1 dot_S1024x1024_S1024x1024_S1024x1024_1_1_0_0_n_n 1024 rfl rfl).symm k) = ix2 q k := funext fun a => Fin.ext (by
    match a with
    | ⟨0, _⟩ => exact rhs_tile_0 _ _
    | ⟨1, _⟩ => exact (rhs_tile_1 _ _).trans hk)
  rw [el, er]

/-- The accumulating store, at an entry: what the accumulator held plus this step's dot product. -/
theorem step_apply (a b : Vec Ideal S1024x1024 .bf16) (acc : Vec Ideal S1024x1024 .f32) (p q : Fin 1024) :
    k0_pay2 a b acc (ix2 p q) = acc (ix2 p q) + ∑ k : Fin 1024, a (ix2 p k) * b (ix2 q k) := by
  unfold k0_pay2
  simp only [shapeCast_self]
  rw [addf_apply, tile_dot_apply]

/-- The closing store, at an entry: the accumulator plus the bias of the column, rectified. -/
theorem close_apply (acc : Vec Ideal S1024x1024 .f32) (b : Vec Ideal S1x1024 .f32) (p q : Fin 1024) :
    k0_pay3 acc b (ix2 p q) = max (acc (ix2 p q) + b (ix2 0 q)) (Ideal.ofBits .f32 0x00000000#32) := by
  unfold k0_pay3
  simp only [shapeCast_self]
  rw [maximumf_apply, addf_apply, broadcast_apply,
    broadcastTo_apply b _ (ix2 p q) (ix2 0 q) (fun a => by
      match a with
      | ⟨0, _⟩ => rfl
      | ⟨1, _⟩ => rfl)]
  rfl

end Cert.KernelIdeal.Pay

end
-- ==== Proof.KernelPieces.lean ====
/-
  What each control case of the kernel body leaves behind, as terms over the body's three stored
  values (the reset to zero, the accumulating step, the closing bias-and-rectify).

  The body has three cases, by the position `k` on the contraction axis of the grid:
  * `k = 0`: the accumulator is reset and then stepped once — it ends at the step applied to zero;
  * `k = 1, 2`: the accumulator is stepped from what the point before left;
  * `k = 3`: the accumulator is stepped, and the output tile is the closing value of the stepped accumulator.
  So at every point the accumulator is the step applied to either zero (`k = 0`) or its previous
  contents, and at `k = 3` the output tile is the closing value of the accumulator just written.
-/
import proofs.«167640_j82205674045457_1_alg».proof.Proof.Gen.KernelIdeal.Value
import Idealize.ShloMosaic.Lib.Tactic

set_option maxRecDepth 16384

noncomputable section

namespace Cert.KernelIdeal.Pieces

open Cert.KernelIdeal Cert.KernelIdeal.Gen Cert.KernelIdeal.Value Idealize.ShloMosaic Idealize.ShloMosaic.TcCoe Idealize.ShloMosaic.Tactic Idealize.SL.Sem

variable {F : FTy → Type} [FloatOps F]

theorem zero_off : (![0, 0] : Fin 2 → Nat) = fun _ => 0 := funext fun a => by fin_cases a <;> rfl

/-- First contraction step: reset, then one step — the step applied to zero. -/
theorem acc_first (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond0_0 i) (hc1 : ¬cond0_1 i)
    (x0 : Vec F S1024x1024 .bf16) (x1 : Vec F S1024x1024 .bf16) (x2 : Vec F S1x1024 .f32) :
    sout0_A_0 c i arg3 harg3 arg4 harg4 arg5 harg5 arg6 harg6 arg7 harg7 hc0 hc1 x0 x1 x2 = k0_pay2 x0 x1 (k0_pay1 (F := F)) := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S1024x1024) zero_off]
  simp only [View.readAt_eq_ld, harg3.read_unread, harg4.read_unread, View.ld_unit_zero (S := S1024x1024) zero_off,
    View.readCov_unit_zero (S := S1024x1024) _ zero_off]

/-- A middle contraction step: one step from what the point before left. -/
theorem acc_middle (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : ¬cond0_1 i)
    (x0 : Vec F S1024x1024 .bf16) (x1 : Vec F S1024x1024 .bf16) (x2 : Vec F S1x1024 .f32) (xs0 : Vec F S1024x1024 .f32) :
    sout0_B_0 c i arg3 harg3 arg4 harg4 arg5 harg5 arg6 harg6 arg7 harg7 hc0 hc1 x0 x1 x2 xs0 = k0_pay2 x0 x1 xs0 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  sl_unfold_words
  rw [View.canon_unit_zero (S := S1024x1024) zero_off]
  simp only [View.readAt_eq_ld, harg3.read_unread, harg4.read_unread, harg7.read_unread, View.ld_unit_zero (S := S1024x1024) zero_off]

/-- The last contraction step leaves the accumulator stepped once more, -/
theorem acc_last (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x1024 .bf16) (x1 : Vec F S1024x1024 .bf16) (x2 : Vec F S1x1024 .f32) (xs0 : Vec F S1024x1024 .f32) :
    sout0_C_0 c i arg3 harg3 arg4 harg4 arg5 harg5 arg6 harg6 arg7 harg7 hc0 hc1 x0 x1 x2 xs0 = k0_pay2 x0 x1 xs0 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero (S := S1024x1024) zero_off]
  simp only [View.readAt_eq_ld, harg3.read_unread, harg4.read_unread, harg7.read_unread, View.ld_unit_zero (S := S1024x1024) zero_off]

/-- and the output tile at the closing value of that accumulator. -/
theorem out_last (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x1024 .bf16) (x1 : Vec F S1024x1024 .bf16) (x2 : Vec F S1x1024 .f32) (xs0 : Vec F S1024x1024 .f32) :
    out0_C_3 c i arg3 harg3 arg4 harg4 arg5 harg5 arg6 harg6 arg7 harg7 hc0 hc1 x0 x1 x2 xs0 = k0_pay3 (k0_pay2 x0 x1 xs0) x2 := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero (S := S1024x1024) zero_off]
  simp only [View.readAt_eq_ld, harg3.read_unread, harg4.read_unread, harg5.read_unread, harg7.read_unread,
    View.ld_unit_zero (S := S1024x1024) zero_off, View.ld_unit_zero (S := S1x1024) zero_off,
    View.readCov_unit_zero (S := S1024x1024) _ zero_off]

variable (m : (ℓ : Loc nD τ sig) → Buf (Elt F) ℓ)

/-- The tiles the body reads at grid point `t`, at their literal types. -/
abbrev xtile (c : Dev nD) (t : Fin cfg0.N) : Vec F S1024x1024 .bf16 := iblk m c 0 t
abbrev wtile (c : Dev nD) (t : Fin cfg0.N) : Vec F S1024x1024 .bf16 := iblk m c 1 t
abbrev btile (c : Dev nD) (t : Fin cfg0.N) : Vec F S1x1024 .f32 := iblk m c 2 t

/-- At a point with `k = 0` the accumulator ends at the step applied to zero, whatever it held. -/
theorem scAt_first (c : Dev nD) (n : ℕ) (hb : n < cfg0.N) (acc : Vec F S1024x1024 .f32) (h0 : n % 4 = 0) :
    scAt0_0 m c n hb acc = k0_pay2 (xtile m c ⟨n, hb⟩) (wtile m c ⟨n, hb⟩) (k0_pay1 (F := F)) := by
  have h1 : ¬n % 4 = 3 := by omega
  unfold scAt0_0
  rw [dif_pos h0, dif_neg h1]
  exact acc_first c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) _ _ (iblk m c 0 ⟨n, hb⟩) (iblk m c 1 ⟨n, hb⟩) (iblk m c 2 ⟨n, hb⟩)

/-- At a point with `k ≠ 0` the accumulator ends at the step applied to what it held. -/
theorem scAt_later (c : Dev nD) (n : ℕ) (hb : n < cfg0.N) (acc : Vec F S1024x1024 .f32) (h0 : ¬n % 4 = 0) :
    scAt0_0 m c n hb acc = k0_pay2 (xtile m c ⟨n, hb⟩) (wtile m c ⟨n, hb⟩) acc := by
  unfold scAt0_0
  rw [dif_neg h0]
  by_cases h1 : n % 4 = 3
  · rw [dif_pos h1]
    exact acc_last c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) _ _ (iblk m c 0 ⟨n, hb⟩) (iblk m c 1 ⟨n, hb⟩) (iblk m c 2 ⟨n, hb⟩) acc
  · rw [dif_neg h1]
    exact acc_middle c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) _ _ (iblk m c 0 ⟨n, hb⟩) (iblk m c 1 ⟨n, hb⟩) (iblk m c 2 ⟨n, hb⟩) acc

/-- At a point with `k = 3` the output tile is the closing value of the accumulator the point leaves. -/
theorem out_at_last (c : Dev nD) (t : Fin cfg0.N) (h1 : t.val % 4 = 3) :
    (outsAt0 m c t.val t.isLt).1 = k0_pay3 (outsAt0 m c t.val t.isLt).2 (btile m c t) := by
  have h0 : ¬t.val % 4 = 0 := by omega
  rw [outsAt0_C m c t h0 h1]
  dsimp only
  rw [out_last c (grid0.coords t) (ms0_0 t) (hs0_0 t) (ms0_1 t) (hs0_1 t) (ms0_2 t) (hs0_2 t) (ms0_3 t) (hs0_3 t) scM0_0 (Memref.isWhole_whole _) _ _ (iblk m c 0 t) (iblk m c 1 t) (iblk m c 2 t) _,
    acc_last c (grid0.coords t) (ms0_0 t) (hs0_0 t) (ms0_1 t) (hs0_1 t) (ms0_2 t) (hs0_2 t) (ms0_3 t) (hs0_3 t) scM0_0 (Memref.isWhole_whole _) _ _ (iblk m c 0 t) (iblk m c 1 t) (iblk m c 2 t) _]

end Cert.KernelIdeal.Pieces

end
-- ==== Proof.KernelValue.lean ====
/-
  The kernel's result array, as one function of the argument arrays.

  The grid has 4 × 4 × 4 points `t = 16·I + 4·J + k`: output tile `(I, J)` of 1024 × 1024 entries is
  built over the four contraction steps `k = 0 … 3` and written back at `k = 3`. At point `t` the
  body sees rows `1024·I …` of `x` and rows `1024·J …` of `W`, both restricted to the columns
  `1024·k …` of the contraction axis, and columns `1024·J …` of the bias row.

  After the step at `k` the accumulator's entry `(p, q)` is zero plus the partial dot products of
  steps `0 … k` (the fold the frame certificate states, read through the library's unrolling of an
  additive fold). At `k = 3` these are the four blocks of the whole contraction sum, so the tile
  written back is `max (∑ n, x[r, n] · W[o, n] + b[o]) 0` at `r = 1024·I + p`, `o = 1024·J + q`: the
  tile of the specification. The sixteen written tiles cover the array.
-/
import proofs.«167640_j82205674045457_1_alg».proof.Proof.KernelPieces
import proofs.«167640_j82205674045457_1_alg».proof.Proof.Payloads
import proofs.«167640_j82205674045457_1_alg».proof.Proof.Spec
import Idealize.ShloMosaic.Lib.StableHlo.Run

set_option maxRecDepth 16384

noncomputable section

namespace Cert.KernelIdeal.KVal

open Cert.KernelIdeal Cert.KernelIdeal.Gen Cert.KernelIdeal.Value Cert.KernelIdeal.Pieces Cert.Spec
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

/-! ## The arrays the region finds -/

/-- The two matrix arguments as launched, at their literal type. -/
abbrev xA (c : Dev nD) : FVec Ideal S4096x4096 .f32 := m ((c : Thread nD τ).loc main_arg0)
abbrev wA (c : Dev nD) : FVec Ideal S4096x4096 .f32 := m ((c : Thread nD τ).loc main_arg1)

/-- The bias vector `beta − ∑ W[o, ·]`, as the host operations before the region compute it. -/
def bias (c : Dev nD) : FVec Ideal S4096 .f32 :=
  subf (broadcastInDim S4096 ![0] bcast_S1_S4096_0 (m ((c : Thread nD τ).loc main_arg2)))
    (Host.reduceAdd (m ((c : Thread nD τ).loc main_arg1)) (constant S_ .f32 0x00000000#32) reducesTo_S4096x4096_S4096_d1 h_S_)

/-- The region's first operand is `x`: the change of float format before the region is the identity on the extended reals. -/
theorem x_entry (c : Dev nD) : (V m c main_v4 : S4096x4096.Idx → EReal) = m ((c : Thread nD τ).loc main_arg0) := by
  dsimp only [V, hostOps0]; after_results; rfl

/-- Its second operand is `W`, likewise. -/
theorem w_entry (c : Dev nD) : (V m c main_v5 : S4096x4096.Idx → EReal) = m ((c : Thread nD τ).loc main_arg1) := by
  dsimp only [V, hostOps0]; after_results; rfl

/-- Its third operand is the bias vector laid out as one row. -/
theorem b_entry (c : Dev nD) : (V m c main_v3 : S1x4096.Idx → EReal) = shapeCast S1x4096 (bias m c) shapeCasts_S4096_S1x4096 := by
  dsimp only [V, hostOps0]; after_results; rfl

/-- The one-row layout read at a column. -/
theorem row_apply (b : FVec Ideal S4096 .f32) (o : Fin 4096) :
    shapeCast S1x4096 b shapeCasts_S4096_S1x4096 (ix2 (0 : Fin 1) o) = b (ix1 o) :=
  shapeCast_apply b shapeCasts_S4096_S1x4096 (ix2 (0 : Fin 1) o) (ix1 o) (by
    rw [Shape.rowMajor_val_one, Shape.rowMajor_val_two]
    show o.val = 0 * 4096 + o.val
    omega)

/-! ## The grid's coordinates, and the tiles a point reads -/

/-- The three coordinates of grid point `n` (row tile, column tile, contraction step). -/
def gI (n : ℕ) : Fin 4 := ⟨n / 16 % 4, Nat.mod_lt _ (by decide)⟩
def gJ (n : ℕ) : Fin 4 := ⟨n / 4 % 4, Nat.mod_lt _ (by decide)⟩
def gK (n : ℕ) : Fin 4 := ⟨n % 4, Nat.mod_lt _ (by decide)⟩

/-- Each window's block index at a point, decided over the 64 points. -/
theorem idx_facts : ∀ t : Fin cfg0.N,
    win0_0.index t (0 : Fin 2) = t.val / 16 % 4 ∧ win0_0.index t (1 : Fin 2) = t.val % 4
    ∧ win0_1.index t (0 : Fin 2) = t.val / 4 % 4 ∧ win0_1.index t (1 : Fin 2) = t.val % 4
    ∧ win0_2.index t (0 : Fin 2) = 0 ∧ win0_2.index t (1 : Fin 2) = t.val / 4 % 4
    ∧ win0_3.index t (0 : Fin 2) = t.val / 16 % 4 ∧ win0_3.index t (1 : Fin 2) = t.val / 4 % 4 :=
  (by decide +kernel : ∀ t : Fin grid0.N, _)

/-- The `x` tile at a point: rows of row tile `I`, columns of contraction block `k`. -/
theorem xtile_apply (c : Dev nD) (t : Fin cfg0.N) (p k : Fin 1024) :
    xtile m c t (ix2 p k) = xA m c (ix2 (tile (gI t.val) p) (kcol (gK t.val) k)) := by
  obtain ⟨e0, e1, -⟩ := idx_facts t
  unfold xtile iblk
  rw [View.read_apply]
  show V m c main_v4 _ = _
  rw [x_entry]
  refine congrArg _ (funext fun a => Fin.ext ?_)
  match a with
  | ⟨0, _⟩ => show win0_0.index t (0 : Fin 2) * 1024 + 1 * p.val = 1024 * (t.val / 16 % 4) + p.val; rw [e0]; omega
  | ⟨1, _⟩ => show win0_0.index t (1 : Fin 2) * 1024 + 1 * k.val = 1024 * (t.val % 4) + k.val; rw [e1]; omega

/-- The `W` tile at a point: rows of column tile `J`, columns of contraction block `k`. -/
theorem wtile_apply (c : Dev nD) (t : Fin cfg0.N) (q k : Fin 1024) :
    wtile m c t (ix2 q k) = wA m c (ix2 (tile (gJ t.val) q) (kcol (gK t.val) k)) := by
  obtain ⟨-, -, e0, e1, -⟩ := idx_facts t
  unfold wtile iblk
  rw [View.read_apply]
  show V m c main_v5 _ = _
  rw [w_entry]
  refine congrArg _ (funext fun a => Fin.ext ?_)
  match a with
  | ⟨0, _⟩ => show win0_1.index t (0 : Fin 2) * 1024 + 1 * q.val = 1024 * (t.val / 4 % 4) + q.val; rw [e0]; omega
  | ⟨1, _⟩ => show win0_1.index t (1 : Fin 2) * 1024 + 1 * k.val = 1024 * (t.val % 4) + k.val; rw [e1]; omega

/-- The bias tile at a point: the columns of column tile `J`. -/
theorem btile_apply (c : Dev nD) (t : Fin cfg0.N) (q : Fin 1024) :
    btile m c t (ix2 (0 : Fin 1) q) = bias m c (ix1 (tile (gJ t.val) q)) := by
  obtain ⟨-, -, -, -, e0, e1, -⟩ := idx_facts t
  unfold btile iblk
  rw [View.read_apply]
  show V m c main_v3 _ = _
  rw [b_entry]
  refine (congrArg (shapeCast S1x4096 (bias m c) shapeCasts_S4096_S1x4096) (funext fun a => Fin.ext ?_)).trans (row_apply (bias m c) _)
  match a with
  | ⟨0, _⟩ => show win0_2.index t (0 : Fin 2) * 1 + 1 * 0 = 0; rw [e0]
  | ⟨1, _⟩ => show win0_2.index t (1 : Fin 2) * 1024 + 1 * q.val = 1024 * (t.val / 4 % 4) + q.val; rw [e1]; omega

/-! ## The accumulator after each point -/

/-- The partial dot product of contraction block `s` at entry `(p, q)` of output tile `(I, J)`. -/
def part (c : Dev nD) (I J s : Fin 4) (p q : Fin 1024) : EReal :=
  ∑ k : Fin 1024, xA m c (ix2 (tile I p) (kcol s k)) * wA m c (ix2 (tile J q) (kcol s k))

/-- What grid point `n` adds to the accumulator, entry by entry. -/
def addend (c : Dev nD) (n : ℕ) (i : S1024x1024.Idx) : EReal := part m c (gI n) (gJ n) (gK n) (i 0) (i 1)

/-- One step at point `n`, at an entry: what the accumulator held plus the point's addend. -/
theorem step_at (c : Dev nD) (n : ℕ) (hb : n < cfg0.N) (acc : Vec Ideal S1024x1024 .f32) (i : S1024x1024.Idx) :
    k0_pay2 (xtile m c ⟨n, hb⟩) (wtile m c ⟨n, hb⟩) acc i = acc i + addend m c n i := by
  obtain ⟨p, q, rfl⟩ : ∃ (p q : Fin 1024), i = ix2 p q := ⟨i 0, i 1, eq_ix2 i⟩
  rw [Pay.step_apply]
  unfold addend part
  refine congrArg (acc (ix2 p q) + ·) (Finset.sum_congr rfl fun k _ => ?_)
  rw [xtile_apply, wtile_apply]

/-- THE ACCUMULATOR after point `t`: zero plus the addends of the points of its run so far. -/
theorem acc_eq (c : Dev nD) (t : Fin cfg0.N) (i : S1024x1024.Idx) :
    (outsAt0 m c t.val t.isLt).2 i = 0 + ∑ s ∈ Finset.range (t.val % 4 + 1), addend m c (4 * (t.val / 4) + s) i := by
  rw [soutsAt0_0_eq]
  refine Pipeline.accAt_add_apply _ _ (fun _ => (0 : EReal)) (addend m c) (4 * (t.val / 4)) 3 ?_ ?_ (t.val % 4) (by omega) _ i
  · intro h j
    rw [scAt_first m c _ h _ (by omega), step_at, Pay.reset_apply]
  · intro n h acc j hlt hle
    rw [scAt_later m c n h acc (by omega), step_at]

/-! ## What a point writes back, the cover, the array -/

/-- The kernel's result: the specification at `x`, `W` and the bias vector. -/
def result (c : Dev nD) : FVec Ideal S4096x4096 .f32 :=
  G (xA m c) (wA m c) (bias m c)

/-- At the last contraction step the four addends of the run are the four blocks of the whole contraction sum. -/
theorem run_sum (c : Dev nD) (t : Fin cfg0.N) (h3 : t.val % 4 = 3) (p q : Fin 1024) :
    0 + ∑ s ∈ Finset.range (t.val % 4 + 1), addend m c (4 * (t.val / 4) + s) (ix2 p q)
      = ∑ n : Fin 4096, xA m c (ix2 (tile (gI t.val) p) n) * wA m c (ix2 (tile (gJ t.val) q) n) := by
  have hN : t.val < 64 := lt_of_lt_of_eq t.isLt N_0
  have eI : ∀ s : ℕ, s < 4 → gI (4 * (t.val / 4) + s) = gI t.val := fun s hs => Fin.ext (by show (4 * (t.val / 4) + s) / 16 % 4 = t.val / 16 % 4; omega)
  have eJ : ∀ s : ℕ, s < 4 → gJ (4 * (t.val / 4) + s) = gJ t.val := fun s hs => Fin.ext (by show (4 * (t.val / 4) + s) / 4 % 4 = t.val / 4 % 4; omega)
  have eK : ∀ s : ℕ, (hs : s < 4) → gK (4 * (t.val / 4) + s) = ⟨s, hs⟩ := fun s hs => Fin.ext (by show (4 * (t.val / 4) + s) % 4 = s; omega)
  rw [h3, sum_kblocks]
  simp only [Finset.sum_range_succ, Finset.sum_range_zero, zero_add]
  unfold addend part
  rw [eI 0 (by decide), eI 1 (by decide), eI 2 (by decide), eI 3 (by decide), eJ 0 (by decide), eJ 1 (by decide), eJ 2 (by decide), eJ 3 (by decide),
    eK 0 (by decide), eK 1 (by decide), eK 2 (by decide), eK 3 (by decide)]
  rfl

/-- WHAT A POINT WRITES BACK (at the last contraction step) is its tile of the result. -/
theorem flushed_eq (c : Dev nD) (t : Fin cfg0.N) (hf : (cfg0.win 3).flush t = true) :
    (dats m 0 c).flushed 3 t = ((cfg0.win 3).blk t).view.read (Elt Ideal) (result m c) := by
  have h3 : t.val % 4 = 3 := (flush0_3 t).mp hf
  obtain ⟨-, -, -, -, -, -, e0, e1⟩ := idx_facts t
  rw [Value.flushed3]
  funext y
  obtain ⟨p, q, rfl⟩ : ∃ (p q : Fin 1024), y = ix2 p q := ⟨y 0, y 1, eq_ix2 y⟩
  rw [View.read_apply]
  show (outsAt0 m c t.val t.isLt).1 (ix2 p q) = result m c (((cfg0.win 3).blk t).view.emb (ix2 p q))
  have hemb : ((cfg0.win 3).blk t).view.emb (ix2 p q) = ix2 (tile (gI t.val) p) (tile (gJ t.val) q) := by
    refine funext fun a => Fin.ext ?_
    match a with
    | ⟨0, _⟩ => show win0_3.index t (0 : Fin 2) * 1024 + 1 * p.val = 1024 * (t.val / 16 % 4) + p.val; rw [e0]; omega
    | ⟨1, _⟩ => show win0_3.index t (1 : Fin 2) * 1024 + 1 * q.val = 1024 * (t.val / 4 % 4) + q.val; rw [e1]; omega
  rw [hemb, out_at_last m c t h3, Pay.close_apply, acc_eq, btile_apply, run_sum m c t h3]
  rfl

/-- An entry is in point `t`'s output tile iff each coordinate is in the tile's range. -/
theorem mem_tile (t : Fin cfg0.N) (i : S4096x4096.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v6).slice (win0_3.rect t)).set ↔ _
  rw [View.set_slice_whole, Rect.mem_set_unit]
  exact Iff.rfl

/-- Every entry of the array lies in the tile some point writes back: entry `(r, o)` in that of the last
    contraction step of tile `(r / 1024, o / 1024)`. -/
theorem cover (i : S4096x4096.Idx) : ∃ t : Fin cfg0.N, (cfg0.win 3).flush t = true ∧ i ∈ ((cfg0.win 3).blk t).view.set := by
  have h0 : (i 0).val < 4096 := (i 0).isLt
  have h1 : (i 1).val < 4096 := (i 1).isLt
  have hN : cfg0.N = 64 := N_0
  let t : Fin cfg0.N := ⟨16 * ((i 0).val / 1024) + 4 * ((i 1).val / 1024) + 3, by rw [hN]; omega⟩
  have ht : t.val = 16 * ((i 0).val / 1024) + 4 * ((i 1).val / 1024) + 3 := rfl
  obtain ⟨-, -, -, -, -, -, e0, e1⟩ := idx_facts t
  refine ⟨t, (flush0_3 t).mpr (by rw [ht]; omega), ?_⟩
  rw [mem_tile]
  intro a
  match a with
  | ⟨0, _⟩ => show win0_3.index t (0 : Fin 2) * 1024 ≤ (i 0).val ∧ (i 0).val < win0_3.index t (0 : Fin 2) * 1024 + 1024; rw [e0, ht]; omega
  | ⟨1, _⟩ => show win0_3.index t (1 : Fin 2) * 1024 ≤ (i 1).val ∧ (i 1).val < win0_3.index t (1 : Fin 2) * 1024 + 1024; rw [e1, ht]; omega

/-- THE ARRAY after the run is the result. -/
theorem final (c : Dev nD) : (dats m 0 c).arrAt 3 cfg0.N = result m c :=
  (dats m 0 c).arrAt_eq_of_cover 3 (result m c) (flushed_eq m c) cover

/-- The kernel's run: it terminates with the result array at the specification and its arguments unchanged. -/
theorem run : θ_run defs (onTc (τ := τ) (main (F := Ideal))) ⟨m, fun _ => 0, ρ⟩ fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.KVal

end
-- ==== Proof.RefValue.lean ====
/-
  The reference, read at an entry: `relu (x · Wᵀ + b)` with `b = beta − ∑ W[o, ·]`.

  Its run ends at `max (dot x W + broadcast b) 0`; entry `(r, o)` of the product is the sum over the
  contraction index `n` of `x[r, n] · W[o, n]` (both operands are contracted along their last axis),
  and the two broadcasts carry `b[o]` to every row. That is the specification `G` at the bias
  vector the reference's own host operations compute.
-/
import proofs.«167640_j82205674045457_1_alg».proof.Proof.Gen.ReferenceIdeal.Read
import proofs.«167640_j82205674045457_1_alg».proof.Proof.Spec

noncomputable section

namespace Cert.ReferenceIdeal.RefValue

open Cert.ReferenceIdeal Cert.ReferenceIdeal.Gen Cert.ReferenceIdeal.Read Idealize.ShloMosaic Idealize.ShloMosaic.ValueIdx

/-- The reference's last stage is the specification at the reference's bias vector. -/
theorem result_eq (x W : FVec Ideal S4096x4096 .f32) (beta : FVec Ideal S1 .f32) :
    val_main_v7 (F := Ideal) x W beta = Cert.Spec.G x W (val_main_v2 (F := Ideal) W beta) := by
  funext j
  obtain ⟨r, o, rfl⟩ : ∃ (r o : Fin 4096), j = ix2 r o := ⟨j 0, j 1, eq_ix2 j⟩
  have el : ∀ k : Fin 4096, lidx_main_v3 (ix2 r o) k = ix2 r k := fun k =>
    funext fun a => Fin.ext (by match a with | ⟨0, _⟩ => rfl | ⟨1, _⟩ => rfl)
  have er : ∀ k : Fin 4096, ridx_main_v3 (ix2 r o) k = ix2 o k := fun k =>
    funext fun a => Fin.ext (by match a with | ⟨0, _⟩ => rfl | ⟨1, _⟩ => rfl)
  have eb : idx_main_v4 (idx_main_v5 (ix2 r o)) = ix1 o :=
    funext fun a => Fin.ext (by match a with | ⟨0, _⟩ => rfl)
  rw [Cert.Spec.G_apply, val_main_v7_apply, val_main_v6_apply, val_main_v3_apply, val_main_v5_apply,
    val_main_v4_apply, val_main_call0_v0_apply, val_main_call0_cst_apply]
  simp only [el, er, eb]
  rfl

end Cert.ReferenceIdeal.RefValue

end
-- ==== Proof.lean ====
/-
  The kernel computes `relu (x · Wᵀ + b)` over f32[4096, 4096] with `b = beta − ∑ W[o, ·]`: the bias
  vector by host operations before the call, the product tile by tile on a 4 × 4 × 4 grid — output
  tile `(I, J)` accumulated in a scratch buffer over four blocks of 1024 contraction columns, the
  bias added and the result rectified at the last block. The reference computes the same bias
  vector by the same host operations, one whole product, the sum and the rectifier.

  On the extended reals both end at `max (∑ n, x[r, n] · W[o, n] + b[o]) 0` at every entry `(r, o)`:
  the changes of float format before the call are the identity, a tile product into a zero
  accumulator is the dot product of the tiles' rows, and the four block sums accumulated from zero
  are the whole sum over the contraction axis (associativity and commutativity of the sum only, so
  the inputs' finiteness is not used). The frames of the two kernel programs are the generated
  ones; the reference's frame is its generated run with the result dropped; nothing was rewritten
  by the ideal pass, so `preserves` is trivial.
-/
import proofs.«167640_j82205674045457_1_alg».proof.Defs
import proofs.«167640_j82205674045457_1_alg».proof.Proof.Gen.Kernel
import proofs.«167640_j82205674045457_1_alg».proof.Proof.Gen.Kernel.Skeleton
import proofs.«167640_j82205674045457_1_alg».proof.Proof.Gen.Kernel.Launch
import proofs.«167640_j82205674045457_1_alg».proof.Proof.Gen.Kernel.Points
import proofs.«167640_j82205674045457_1_alg».proof.Proof.Gen.Kernel.Frame
import proofs.«167640_j82205674045457_1_alg».proof.Proof.Gen.KernelIdeal
import proofs.«167640_j82205674045457_1_alg».proof.Proof.Gen.KernelIdeal.Skeleton
import proofs.«167640_j82205674045457_1_alg».proof.Proof.Gen.KernelIdeal.Launch
import proofs.«167640_j82205674045457_1_alg».proof.Proof.Gen.KernelIdeal.Points
import proofs.«167640_j82205674045457_1_alg».proof.Proof.Gen.KernelIdeal.Frame
import proofs.«167640_j82205674045457_1_alg».proof.Proof.Gen.ReferenceIdeal
import proofs.«167640_j82205674045457_1_alg».proof.Proof.Gen.Pre_finite_inputs
import proofs.«167640_j82205674045457_1_alg».proof.Proof.Gen.KernelIdeal.Value
import proofs.«167640_j82205674045457_1_alg».proof.Proof.Gen.ReferenceIdeal.Run
import proofs.«167640_j82205674045457_1_alg».proof.Proof.Gen.ReferenceIdeal.Read
import proofs.«167640_j82205674045457_1_alg».proof.Proof.Spec
import proofs.«167640_j82205674045457_1_alg».proof.Proof.Payloads
import proofs.«167640_j82205674045457_1_alg».proof.Proof.KernelPieces
import proofs.«167640_j82205674045457_1_alg».proof.Proof.KernelValue
import proofs.«167640_j82205674045457_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the specification `G` of arguments that agree, at bias vectors that are one term. -/
theorem algebraic : Cert.algebraic_KernelIdeal_ReferenceIdeal := by
  intro m ρ m' ρ' _ hagree
  refine ⟨fun c => Cert.KernelIdeal.KVal.result m c, Cert.KernelIdeal.KVal.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v7_eq _ _ _).trans ?_
  rw [Cert.ReferenceIdeal.RefValue.result_eq, (hagree c).1, (hagree c).2.1, (hagree c).2.2]
  rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
